-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part1 {F : FTy → Type} [FloatOps F] (main_arg2 : IVec S2x1000000 32) (main_arg5 : FVec F S128x1 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S2x1000000 32 := broadcastInDim S2x1000000 ![] bcast_S_S2x1000000 main_c_10
  let main_v30 : IVec S2x1000000 1 := cmpi .sge main_arg2 main_v29
  let main_c_11 : IVec S_ 1 := constantI S_ 1 1#1
  let main_v31 : IVec S_ 1 := (fun x v => Host.reduce IntOp.andi x v reducesTo_S2x1000000_S_d0_1 h_S_) main_v30 main_c_11
  let main_v32 : IVec S_ 1 := andi main_v28 main_v31
  main_v32

def fn {F : FTy → Type} [FloatOps F] (main_arg0 : FVec F S100000x128 .f32) (main_arg1 : FVec F S100000x128 .f32) (main_arg2 : IVec S2x1000000 32) (main_arg3 : FVec F S128x128 .f32) (main_arg4 : FVec F S128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S8000x128 : Shape := ⟨2, ![8000, 128]⟩
abbrev S8000x1 : Shape := ⟨2, ![8000, 1]⟩
abbrev S1x128 : Shape := ⟨2, ![1, 128]⟩
abbrev S1x1 : Shape := ⟨2, ![1, 1]⟩

abbrev nBuf : Space → Nat
  | .hbm => 52
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x1000000, .i32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S100000x128, .bf16⟩
  | .hbm, ⟨28, _⟩ => ⟨S100000x128, .bf16⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x128, .bf16⟩
  | .hbm, ⟨38, _⟩ => ⟨S1000000x128, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x128, .bf16⟩
  | .hbm, ⟨48, _⟩ => ⟨S1000000x128, .f32⟩
  | .hbm, ⟨49, _⟩ => ⟨S1000000x128, .f32⟩
  | .hbm, ⟨50, _⟩ => ⟨S1000000x128, .bf16⟩
  | .hbm, ⟨51, _⟩ => ⟨S1000000x1, .f32⟩
  | .local _ .vmem, ⟨0, _⟩ => ⟨S8000x128, .bf16⟩
  | .local _ .vmem, ⟨1, _⟩ => ⟨S8000x128, .bf16⟩
  | .local _ .vmem, ⟨2, _⟩ => ⟨S128x128, .f32⟩
  | .local _ .vmem, ⟨3, _⟩ => ⟨S128, .f32⟩
  | .local _ .vmem, ⟨4, _⟩ => ⟨S128x1, .f32⟩
  | .local _ .vmem, ⟨5, _⟩ => ⟨S1, .f32⟩
  | .local _ .vmem, ⟨6, _⟩ => ⟨S8000x1, .f32⟩
  | .local _ .vmem, ⟨7, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_3 : Ref sig .tc := ⟨.hbm, 29, rfl⟩
abbrev main_v8 : Ref sig .tc := ⟨.hbm, 30, rfl⟩
abbrev main_v9 : Ref sig .tc := ⟨.hbm, 31, rfl⟩
abbrev main_c_4 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_5 : Ref sig .tc := ⟨.hbm, 39, rfl⟩
abbrev main_v16 : Ref sig .tc := ⟨.hbm, 40, rfl⟩
abbrev main_v17 : Ref sig .tc := ⟨.hbm, 41, rfl⟩
abbrev main_c_6 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  slices_S2x1000000_S1x1000000_1_0 : S2x1000000.Slices ![1, 0] S1x1000000
  bitsLt_bf16_f32 : FTy.bits .bf16 < FTy.bits .f32
  bcast_S1000000_S1000000x1_0 : S1000000.BroadcastsInDim S1000000x1 (![0] : Fin 1 → Fin S1000000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  gather_S100000x128_S1000000x1_S1000000x128_1_0_n_n_0_1_1128_wf : GatherDims.WF S100000x128 S1000000x1 S1000000x128 [1] [0] [] [0] [] 1 ![1, 128]
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .bf16 = 32 ∨ (Rect.block (s := S1000000x128) S8000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x1.size a ≤ S1000000x1.size a
  hwx0_5 : ∀ i : grid0.Coords, EltTy.bits .f32 = 32 ∨ (Rect.block (s := S1000000x1) S8000x1.size (cc0_transform_5 i) (hinb0_5 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_v25) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S8000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1x128 : Shape := ⟨2, ![1, 128]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x1000000, .i32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x128, .f32⟩
  | .hbm, ⟨18, _⟩ => ⟨S1x1000000, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S1000000x128, .f32⟩
  | .hbm, ⟨30, _⟩ => ⟨S1000000x128, .f32⟩
  | .hbm, ⟨31, _⟩ => ⟨S1x128, .f32⟩
  | .hbm, ⟨32, _⟩ => ⟨S1000000x128, .f32⟩
  | .hbm, ⟨33, _⟩ => ⟨S1000000x128, .f32⟩
  | .hbm, ⟨34, _⟩ => ⟨S_, .f32⟩
  | .hbm, ⟨35, _⟩ => ⟨S1000000x128, .f32⟩
  | .hbm, ⟨36, _⟩ => ⟨S1000000x128, .f32⟩
  | .hbm, ⟨37, _⟩ => ⟨S1000000x1, .f32⟩
  | .hbm, ⟨38, _⟩ => ⟨S1x1, .f32⟩
  | .hbm, ⟨39, _⟩ => ⟨S1000000x1, .f32⟩
  | .hbm, ⟨40, _⟩ => ⟨S1000000x1, .f32⟩
  | .hbm, ⟨41, _⟩ => ⟨S1000000x1, .f32⟩
  | .hbm, ⟨42, _⟩ => ⟨S1000000x1, .f32⟩
  | .hbm, ⟨43, _⟩ => ⟨S_, .f32⟩
  | .hbm, ⟨44, _⟩ => ⟨S1000000x1, .f32⟩
  | .hbm, ⟨45, _⟩ => ⟨S1000000x1, .f32⟩
  | .hbm, ⟨46, _⟩ => ⟨S_, .f32⟩
  | .hbm, ⟨47, _⟩ => ⟨S1000000x1, .f32⟩
  | .hbm, ⟨48, _⟩ => ⟨S1000000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  gather_S100000x128_S1000000x1_S1000000x128_1_0_n_n_0_1_1128_wf : GatherDims.WF S100000x128 S1000000x1 S1000000x128 [1] [0] [] [0] [] 1 ![1, 128]
  dot_S1000000x128_S128x128_S1000000x128_1_0_0_1_n_n_wf : DotDims.WF S1000000x128 S128x128 S1000000x128 [1] [0] [0] [1] [] []
  dot_S1000000x128_S128x1_S1000000x1_1_0_0_1_n_n_wf : DotDims.WF S1000000x128 S128x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.KernelBody.lean ====
/-
  The kernel body's one store, read at an index of its `[8000, 1]` block.

  The body is the two-layer perceptron on a block of 8000 feature rows: a `[8000,128] × [128,128]` product into a zero
  accumulator, the bias row broadcast down the block, the maximum with zero, a `[8000,128] × [128,1]` product into a zero
  accumulator, the second bias, the logistic. On the extended reals the bf16 casts are the identity and a product into
  a zero accumulator is the plain sum over the contracted axis, so entry `(r, c)` of the stored block is
    σ (Σ_j max (Σ_k x[r,k] · W1[k,j] + b1[j]) 0 · W2[j,c] + b2[c]).
-/
import proofs.«431296_j62045097558106_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx
open scoped BigOperators

/-! ## The first product's operand indices -/

theorem lhs_fc1_0 (i : S8000x128.Idx) (q : dot_S8000x128_S128x128_S8000x128_1_0_0_1_n_n.contr.Idx) : (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_fc1_1 (i : S8000x128.Idx) (q : dot_S8000x128_S128x128_S8000x128_1_0_0_1_n_n.contr.Idx) : (dot_S8000x128_S128x128_S8000x128_1_0_0_1_n_n.lhsIdx i q 1).val = (q ⟨0, by decide⟩).val :=
  dot_S8000x128_S128x128_S8000x128_1_0_0_1_n_n.lhsIdx_val_of_single rfl i q
theorem rhs_fc1_0 (i : S8000x128.Idx) (q : dot_S8000x128_S128x128_S8000x128_1_0_0_1_n_n.contr.Idx) : (dot_S8000x128_S128x128_S8000x128_1_0_0_1_n_n.rhsIdx i q 0).val = (q ⟨0, by decide⟩).val :=
  dot_S8000x128_S128x128_S8000x128_1_0_0_1_n_n.rhsIdx_val_of_single rfl i q
theorem rhs_fc1_1 (i : S8000x128.Idx) (q : dot_S8000x128_S128x128_S8000x128_1_0_0_1_n_n.contr.Idx) : (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The first layer's product into a zero accumulator, at (row, unit): the sum over the 128 features. -/
theorem fc1_apply (a : FVec Ideal S8000x128 .bf16) (b : FVec Ideal S128x128 .bf16) (r : Fin 8000) (j : Fin 128) :
    matmul dot_S8000x128_S128x128_S8000x128_1_0_0_1_n_n none a b (constant S8000x128 .f32 0x00000000#32) (ix2 r j) = ∑ k : Fin 128, a (ix2 r k) * b (ix2 k j) := by
  show FloatOps.matmul dot_S8000x128_S128x128_S8000x128_1_0_0_1_n_n none a b (constant S8000x128 .f32 0x00000000#32) (ix2 r j) = _
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 r j) ((contrEquiv1 dot_S8000x128_S128x128_S8000x128_1_0_0_1_n_n 128 rfl rfl).symm k) = ix2 r k := funext fun ax => Fin.ext (by
    match ax with
    | ⟨0, _⟩ => exact lhs_fc1_0 _ _
    | ⟨1, _⟩ => exact (lhs_fc1_1 _ _).trans hk)
  have er : dot_S8000x128_S128x128_S8000x128_1_0_0_1_n_n.rhsIdx (ix2 r j) ((contrEquiv1 dot_S8000x128_S128x128_S8000x128_1_0_0_1_n_n 128 rfl rfl).symm k) = ix2 k j := funext fun ax => Fin.ext (by
    match ax with
    | ⟨0, _⟩ => exact (rhs_fc1_0 _ _).trans hk
    | ⟨1, _⟩ => exact rhs_fc1_1 _ _)
  rw [el, er]

/-! ## The second product's operand indices -/

theorem lhs_fc2_0 (i : S8000x1.Idx) (q : dot_S8000x128_S128x1_S8000x1_1_0_0_1_n_n.contr.Idx) : (dot_S8000x128_S128x1_S8000x1_1_0_0_1_n_n.lhsIdx i q 0).val = (i 0).val := by
  unfold DotDims.lhsIdx
  rw [dif_neg (show ¬(0 : Fin S8000x128.rank) ∈ dot_S8000x128_S128x1_S8000x1_1_0_0_1_n_n.lhsBatch by decide), dif_pos (show (0 : Fin S8000x128.rank) ∈ dot_S8000x128_S128x1_S8000x1_1_0_0_1_n_n.lhsNonContracting by decide)]
  rfl
theorem lhs_fc2_1 (i : S8000x1.Idx) (q : dot_S8000x128_S128x1_S8000x1_1_0_0_1_n_n.contr.Idx) : (dot_S8000x128_S128x1_S8000x1_1_0_0_1_n_n.lhsIdx i q 1).val = (q ⟨0, by decide⟩).val :=
  dot_S8000x128_S128x1_S8000x1_1_0_0_1_n_n.lhsIdx_val_of_single rfl i q
theorem rhs_fc2_0 (i : S8000x1.Idx) (q : dot_S8000x128_S128x1_S8000x1_1_0_0_1_n_n.contr.Idx) : (dot_S8000x128_S128x1_S8000x1_1_0_0_1_n_n.rhsIdx i q 0).val = (q ⟨0, by decide⟩).val :=
  dot_S8000x128_S128x1_S8000x1_1_0_0_1_n_n.rhsIdx_val_of_single rfl i q
theorem rhs_fc2_1 (i : S8000x1.Idx) (q : dot_S8000x128_S128x1_S8000x1_1_0_0_1_n_n.contr.Idx) : (dot_S8000x128_S128x1_S8000x1_1_0_0_1_n_n.rhsIdx i q 1).val = (i 1).val := by
  unfold DotDims.rhsIdx
  rw [dif_neg (show ¬(1 : Fin S128x1.rank) ∈ dot_S8000x128_S128x1_S8000x1_1_0_0_1_n_n.rhsBatch by decide), dif_pos (show (1 : Fin S128x1.rank) ∈ dot_S8000x128_S128x1_S8000x1_1_0_0_1_n_n.rhsNonContracting by decide)]
  rfl

/-- The second layer's product into a zero accumulator, at (row, column): the sum over the 128 hidden units. -/
theorem fc2_apply (a : FVec Ideal S8000x128 .bf16) (b : FVec Ideal S128x1 .bf16) (r : Fin 8000) (c : Fin 1) :
    matmul dot_S8000x128_S128x1_S8000x1_1_0_0_1_n_n none a b (constant S8000x1 .f32 0x00000000#32) (ix2 r c) = ∑ j : Fin 128, a (ix2 r j) * b (ix2 j c) := by
  show FloatOps.matmul dot_S8000x128_S128x1_S8000x1_1_0_0_1_n_n none a b (constant S8000x1 .f32 0x00000000#32) (ix2 r c) = _
  rw [Ideal.matmul_constant_zero_apply, ← Equiv.sum_comp (contrEquiv1 dot_S8000x128_S128x1_S8000x1_1_0_0_1_n_n 128 rfl rfl).symm]
  refine Finset.sum_congr rfl fun k _ => ?_
  have hk := contrEquiv1_symm_val dot_S8000x128_S128x1_S8000x1_1_0_0_1_n_n 128 rfl rfl k
  have el : dot_S8000x128_S128x1_S8000x1_1_0_0_1_n_n.lhsIdx (ix2 r c) ((contrEquiv1 dot_S8000x128_S128x1_S8000x1_1_0_0_1_n_n 128 rfl rfl).symm k) = ix2 r k := funext fun ax => Fin.ext (by
    match ax with
    | ⟨0, _⟩ => exact lhs_fc2_0 _ _
    | ⟨1, _⟩ => exact (lhs_fc2_1 _ _).trans hk)
  have er : dot_S8000x128_S128x1_S8000x1_1_0_0_1_n_n.rhsIdx (ix2 r c) ((contrEquiv1 dot_S8000x128_S128x1_S8000x1_1_0_0_1_n_n 128 rfl rfl).symm k) = ix2 k c := funext fun ax => Fin.ext (by
    match ax with
    | ⟨0, _⟩ => exact (rhs_fc2_0 _ _).trans hk
    | ⟨1, _⟩ => exact rhs_fc2_1 _ _)
  rw [el, er]

/-! ## The stored block at an index -/

/-- THE BODY'S STORE AT (r, c), as a function of the five loaded blocks. -/
theorem pay_apply (x0 : Vec Ideal S8000x128 .bf16) (x1 : Vec Ideal S128x128 .f32) (x2 : Vec Ideal S128 .f32)
    (x3 : Vec Ideal S128x1 .f32) (x4 : Vec Ideal S1 .f32) (r : Fin 8000) (c : Fin 1) :
    k0_pay1 x0 x1 x2 x3 x4 (ix2 r c)
      = Ideal.logistic ((∑ j : Fin 128,
          max ((∑ k : Fin 128, x0 (ix2 r k) * x1 (ix2 k j)) + x2 (ix1 j)) (Ideal.ofBits .f32 0x00000000#32) * x3 (ix2 j c))
          + x4 (ix1 c)) := by
  unfold k0_pay1
  show Ideal.logistic (_ + _) = Ideal.logistic (_ + _)
  congr 2
  · refine (fc2_apply _ _ r c).trans (Finset.sum_congr rfl fun j _ => ?_)
    show max (_ + _) (Ideal.ofBits .f32 0x00000000#32) * x3 (ix2 j c) = max (_ + _) (Ideal.ofBits .f32 0x00000000#32) * x3 (ix2 j c)
    congr 3
    · refine (fc1_apply _ _ r j).trans (Finset.sum_congr rfl fun k _ => ?_)
      rw [shapeCast_self]
      rfl
    · exact (broadcastTo_1b_ab_apply _ _ r j).trans (shapeCast_a_1a_apply x2 _ 0 j)
  · exact (broadcastTo_1b_ab_apply _ _ r c).trans (shapeCast_a_1a_apply x4 _ 0 c)

end Cert.KernelIdeal.Hand

end
-- ==== Proof.KernelHost.lean ====
/-
  What the host operations before the pallas_call leave in the array the kernel's first window stages.

  `forward` prepares the feature rows on the host: it takes the two rows of `pairs`, clips each index to
  `[0, 99999]`, wraps negative ones (what jnp's indexing adds), gathers the rows of the two embedding tables (cast to
  bf16, which changes nothing on the extended reals) and multiplies them. The region finds exactly that array.
-/
import proofs.«431296_j62045097558106_3_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]

/-- Row 0 of `pairs` as a flat vector: the slice `[0:1, :]`, reshaped. -/
def srcIdx (p : IVec S2x1000000 32) : IVec S1000000 32 :=
  shapeCast _ (extractStridedSlice S1x1000000 ![0, 0] p slices_S2x1000000_S1x1000000_0_0) shapeCasts_S1x1000000_S1000000
/-- Row 1 of `pairs` as a flat vector. -/
def dstIdx (p : IVec S2x1000000 32) : IVec S1000000 32 :=
  shapeCast _ (extractStridedSlice S1x1000000 ![1, 0] p slices_S2x1000000_S1x1000000_1_0) shapeCasts_S1x1000000_S1000000

/-- `jnp.clip(q, 0, 99999)`: the minimum with the upper bound of the maximum with the lower. -/
def clipIdx (q : IVec S1000000 32) : IVec S1000000 32 :=
  minsi (broadcastInDim S1000000 ![] bcast_S_S1000000 (id (constantI S_ 32 99999#32)))
    (maxsi (broadcastInDim S1000000 ![] bcast_S_S1000000 (id (constantI S_ 32 0#32))) q)

/-- What jnp's indexing does to an index vector before the gather: `q + 100000` where `q < 0`, then a column. -/
def wrapIdx (q : IVec S1000000 32) : IVec S1000000x1 32 :=
  broadcastInDim S1000000x1 ![0] bcast_S1000000_S1000000x1_0
    (select (cmpi .slt q (broadcastInDim S1000000 ![] bcast_S_S1000000 (constantI S_ 32 0#32)))
      (addi q (broadcastInDim S1000000 ![] bcast_S_S1000000 (constantI S_ 32 100000#32))) q)

/-- The feature rows the host hands the kernel: `bf16(left)[src] · bf16(right)[dst]`, in bf16. -/
def feat (l r : FVec F S100000x128 .f32) (p : IVec S2x1000000 32) : FVec F S1000000x128 .bf16 :=
  truncf .bf16 (mulf
    (extf .f32 (Host.gather gather_S100000x128_S1000000x1_S1000000x128_1_0_n_n_0_1_1128 (truncf .bf16 l bitsLt_bf16_f32)
      (wrapIdx (clipIdx (srcIdx p)))) bitsLt_bf16_f32)
    (extf .f32 (Host.gather gather_S100000x128_S1000000x1_S1000000x128_1_0_n_n_0_1_1128 (truncf .bf16 r bitsLt_bf16_f32)
      (wrapIdx (clipIdx (dstIdx p)))) bitsLt_bf16_f32)) bitsLt_bf16_f32

variable (m : (ℓ : Loc nD τ sig) → Buf (Elt F) ℓ)

set_option maxRecDepth 8192 in
/-- The array window 0 stages, as the region finds it, is `feat` of the launch contents of the three arguments. -/
theorem V_feat (c : Dev nD) :
    (V m c main_v25 : S1000000x128.Idx → Elt F .bf16)
      = feat (F := F) (m ((c : Thread nD τ).loc main_arg0)) (m ((c : Thread nD τ).loc main_arg1)) (m ((c : Thread nD τ).loc main_arg2)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp <;> rfl

end Cert.KernelIdeal.Hand

end
-- ==== Proof.Spec.lean ====
/-
  The edge scorer as one function of its arrays, index by index, on the extended reals.

  Edge `e` has a feature row `X e : 128` (the product of its two endpoints' embeddings; here `X` is just an array
  `[1000000, 128]`). The scorer is a two-layer perceptron applied to every row:
    hidden e j = max (Σ_k X[e,k] · W1[k,j] + b1[j]) 0,
    score e    = σ (Σ_j hidden e j · W2[j,0] + b2[0]),   σ z = 1 / (1 + e^(−z)).
  Both programs compute exactly this, the sums in this order: nothing is rearranged, so no law of the extended reals
  beyond the definitions is needed, and no finiteness.
-/
import Idealize.ShloMosaic.PureOps.Ideal
import Idealize.ShloMosaic.Lib.ValueIdx

noncomputable section

namespace Cert.EdgeScore

open Idealize.ShloMosaic Idealize.ShloMosaic.ValueIdx
open scoped BigOperators

/-- Hidden unit `j` of edge `e`: the rectified affine image of the edge's feature row. The zero is the f32 zero word,
    which both programs carry. -/
def hidden (X : (⟨2, ![1000000, 128]⟩ : Shape).Idx → EReal) (W1 : (⟨2, ![128, 128]⟩ : Shape).Idx → EReal)
    (b1 : (⟨1, ![128]⟩ : Shape).Idx → EReal) (e : Fin 1000000) (j : Fin 128) : EReal :=
  max ((∑ k : Fin 128, X (ix2 e k) * W1 (ix2 k j)) + b1 (ix1 j)) (Ideal.ofBits .f32 0x00000000#32)

/-- The score of every edge, as the `[1000000, 1]` array both programs return: the logistic of the second affine
    layer over the hidden units. -/
def score (X : (⟨2, ![1000000, 128]⟩ : Shape).Idx → EReal) (W1 : (⟨2, ![128, 128]⟩ : Shape).Idx → EReal)
    (b1 : (⟨1, ![128]⟩ : Shape).Idx → EReal) (W2 : (⟨2, ![128, 1]⟩ : Shape).Idx → EReal)
    (b2 : (⟨1, ![1]⟩ : Shape).Idx → EReal) : (⟨2, ![1000000, 1]⟩ : Shape).Idx → EReal := fun i =>
  Ideal.logistic ((∑ j : Fin 128, hidden X W1 b1 (i 0) j * W2 (ix2 j (i 1))) + b2 (ix1 (i 1)))

end Cert.EdgeScore

end
-- ==== Proof.KernelValue.lean ====
/-
  The kernel's result array is the edge score of the feature rows the host prepared.

  The grid has 125 points; point `t` stages rows `8000 t … 8000 t + 7999` of the feature array and the whole of the
  four parameter arrays, and writes back rows `8000 t … 8000 t + 7999` of the `[1000000, 1]` result. The score of an
  edge looks only at that edge's own feature row, so what point `t` writes is block `t` of ONE whole-array function —
  the specification's `score` of the arrays as the region finds them — and the 125 blocks tile the result.
-/
import proofs.«431296_j62045097558106_3_alg».proof.Proof.Gen.KernelIdeal.Value
import proofs.«431296_j62045097558106_3_alg».proof.Proof.KernelBody
import proofs.«431296_j62045097558106_3_alg».proof.Proof.KernelHost
import proofs.«431296_j62045097558106_3_alg».proof.Proof.Spec

set_option maxRecDepth 16384

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Cert.EdgeScore
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the feature window and the result window move down their arrays one block a
    point; the four parameter windows stay on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem t_lt (t : Fin cfg0.N) : t.val < 125 := by
  have h := t.isLt
  have e : cfg0.N = 125 := N_0
  omega

/-! ## The input blocks as restrictions of their arrays -/

/-- The arrays as the region finds them, at their literal types. -/
abbrev featArr (c : Dev nD) : S1000000x128.Idx → EReal := V m c main_v25
abbrev w1Arr (c : Dev nD) : S128x128.Idx → EReal := V m c main_arg3
abbrev b1Arr (c : Dev nD) : S128.Idx → EReal := V m c main_arg4
abbrev w2Arr (c : Dev nD) : S128x1.Idx → EReal := V m c main_arg5
abbrev b2Arr (c : Dev nD) : S1.Idx → EReal := V m c main_arg6

/-- The feature window's block at point `t` holds rows `8000 t + r` of the feature array. -/
theorem blk0_apply (c : Dev nD) (t : Fin cfg0.N) (r : Fin 8000) (k : Fin 128) :
    (iblk m c 0 t : Vec Ideal S8000x128 .bf16) (ix2 r k)
      = featArr m c (ix2 ⟨8000 * t.val + r.val, by have := t_lt t; have := r.isLt; omega⟩ k) := by
  obtain ⟨e0, e1, -⟩ := idx_facts t
  unfold iblk
  rw [View.read_apply]
  show V m c main_v25 _ = V m c main_v25 _
  congr 1
  funext a
  apply Fin.ext
  match a with
  | ⟨0, _⟩ => show win0_0.index t (0 : Fin 2) * 8000 + 1 * r.val = 8000 * t.val + r.val; rw [e0]; omega
  | ⟨1, _⟩ => show win0_0.index t (1 : Fin 2) * 128 + 1 * k.val = k.val; rw [e1]; omega

/-- The first layer's weights are staged whole at every point. -/
theorem blk1_eq (c : Dev nD) (t : Fin cfg0.N) : (iblk m c 1 t : Vec Ideal S128x128 .f32) = w1Arr m c := by
  obtain ⟨-, -, e0, e1, -⟩ := idx_facts t
  funext y
  unfold iblk
  rw [View.read_apply]
  show V m c main_arg3 _ = V m c main_arg3 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The first layer's bias is staged whole at every point. -/
theorem blk2_eq (c : Dev nD) (t : Fin cfg0.N) : (iblk m c 2 t : Vec Ideal S128 .f32) = b1Arr m c := by
  obtain ⟨-, -, -, -, e0, -⟩ := idx_facts t
  funext y
  unfold iblk
  rw [View.read_apply]
  show V m c main_arg4 _ = V m c main_arg4 _
  congr 1
  funext a
  apply Fin.ext
  match a with
  | ⟨0, _⟩ => show win0_2.index t (0 : Fin 1) * 128 + 1 * (y 0).val = (y 0).val; rw [e0]; omega

/-- The second layer's weights are staged whole at every point. -/
theorem blk3_eq (c : Dev nD) (t : Fin cfg0.N) : (iblk m c 3 t : Vec Ideal S128x1 .f32) = w2Arr m c := by
  obtain ⟨-, -, -, -, -, e0, e1, -⟩ := idx_facts t
  funext y
  unfold iblk
  rw [View.read_apply]
  show V m c main_arg5 _ = V m c main_arg5 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 1 + 1 * (y 1).val = (y 1).val; rw [e1]; omega

/-- The second layer's bias is staged whole at every point. -/
theorem blk4_eq (c : Dev nD) (t : Fin cfg0.N) : (iblk m c 4 t : Vec Ideal S1 .f32) = b2Arr m c := by
  obtain ⟨-, -, -, -, -, -, -, e0, -⟩ := idx_facts t
  funext y
  unfold iblk
  rw [View.read_apply]
  show V m c main_arg6 _ = V m c main_arg6 _
  congr 1
  funext a
  apply Fin.ext
  match a with
  | ⟨0, _⟩ => show win0_4.index t (0 : Fin 1) * 1 + 1 * (y 0).val = (y 0).val; rw [e0]; omega

/-! ## What a point writes back, the cover, the final array -/

/-- The whole-array function the result ends holding: the score of the arrays as the region finds them. -/
abbrev result (c : Dev nD) : S1000000x1.Idx → EReal :=
  score (featArr m c) (w1Arr m c) (b1Arr m c) (w2Arr m c) (b2Arr m c)

/-- WHAT POINT `t` WRITES BACK is block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz2]
  simp only [View.ld_unit_zero (S := S8000x128) hz2, View.ld_unit_zero (S := S128x128) hz2, View.ld_unit_zero (S := S128) hz1,
    View.ld_unit_zero (S := S128x1) hz2, View.ld_unit_zero (S := S1) hz1]
  obtain ⟨-, -, -, -, -, -, -, -, e0, e1⟩ := idx_facts t
  funext y
  obtain ⟨r, cc, rfl⟩ : ∃ (r : Fin 8000) (cc : Fin 1), y = ix2 r cc := ⟨y 0, y 1, eq_ix2 y⟩
  have hemb : ((cfg0.win 5).blk t).view.emb (ix2 r cc)
      = (ix2 ⟨8000 * t.val + r.val, by have := t_lt t; have := r.isLt; omega⟩ cc : S1000000x1.Idx) := by
    funext a
    apply Fin.ext
    match a with
    | ⟨0, _⟩ => show win0_5.index t (0 : Fin 2) * 8000 + 1 * r.val = 8000 * t.val + r.val; rw [e0]; omega
    | ⟨1, _⟩ => show win0_5.index t (1 : Fin 2) * 1 + 1 * cc.val = cc.val; rw [e1]; omega
  show k0_pay1 (iblk m c 0 t) (iblk m c 1 t) (iblk m c 2 t) (iblk m c 3 t) (iblk m c 4 t) (ix2 r cc)
    = result m c (((cfg0.win 5).blk t).view.emb (ix2 r cc))
  rw [hemb]
  refine (pay_apply (iblk m c 0 t) (iblk m c 1 t) (iblk m c 2 t) (iblk m c 3 t) (iblk m c 4 t) r cc).trans ?_
  rw [blk1_eq, blk2_eq, blk3_eq, blk4_eq]
  simp only [blk0_apply]
  rfl

/-- An index of the result is in point `t`'s block iff each coordinate is in the block's range on its axis. -/
theorem mem_blk (t : Fin cfg0.N) (i : S1000000x1.Idx) :
    i ∈ ((cfg0.win 5).blk t).view.set ↔ ∀ a : Fin 2, win0_5.index t a * S8000x1.size a ≤ (i a).val ∧ (i a).val < win0_5.index t a * S8000x1.size a + S8000x1.size a := by
  show i ∈ ((View.whole main_v26).slice (win0_5.rect t)).set ↔ _
  rw [View.set_slice_whole, Rect.mem_set_unit]
  exact Iff.rfl

/-- THE COVER: row `e` of the result is in the block of point `e / 8000`. -/
theorem cover (i : S1000000x1.Idx) : ∃ t : Fin cfg0.N, (cfg0.win 5).flush t = true ∧ i ∈ ((cfg0.win 5).blk t).view.set := by
  have hi0 : (i 0).val < 1000000 := (i 0).isLt
  have hi1 : (i 1).val < 1 := (i 1).isLt
  let t : Fin cfg0.N := ⟨(i 0).val / 8000, by have e : cfg0.N = 125 := N_0; omega⟩
  obtain ⟨-, -, -, -, -, -, -, -, e0, e1⟩ := idx_facts t
  refine ⟨t, flush0_5 t, ?_⟩
  rw [mem_blk]
  intro a
  have ht : t.val = (i 0).val / 8000 := rfl
  match a with
  | ⟨0, _⟩ => show win0_5.index t (0 : Fin 2) * 8000 ≤ (i 0).val ∧ (i 0).val < win0_5.index t (0 : Fin 2) * 8000 + 8000; rw [e0, ht]; omega
  | ⟨1, _⟩ => show win0_5.index t (1 : Fin 2) * 1 ≤ (i 1).val ∧ (i 1).val < win0_5.index t (1 : Fin 2) * 1 + 1; rw [e1]; omega

/-- THE ARRAY after the run is `result`. -/
theorem final (c : Dev nD) : (dats m 0 c).arrAt 5 cfg0.N = result m c :=
  (dats m 0 c).arrAt_eq_of_cover 5 (result m c) (fun t _ => flushed_eq m c t) cover

/-! ## The run, read -/

/-- The result in terms of the launch contents: the score of the host-prepared feature rows and the four parameter
    arrays as launched (no host operation writes them). -/
theorem result_launch (c : Dev nD) :
    result m c = score (feat (F := Ideal) (m ((c : Thread nD τ).loc main_arg0)) (m ((c : Thread nD τ).loc main_arg1)) (m ((c : Thread nD τ).loc main_arg2)))
      (m ((c : Thread nD τ).loc main_arg3)) (m ((c : Thread nD τ).loc main_arg4)) (m ((c : Thread nD τ).loc main_arg5)) (m ((c : Thread nD τ).loc main_arg6)) := by
  show score (V m c main_v25) (V m c main_arg3) (V m c main_arg4) (V m c main_arg5) (V m c main_arg6) = _
  rw [V_feat, V_main_arg3, V_main_arg4, V_main_arg5, V_main_arg6]

/-- The kernel's run with the result array read: the score array, the arguments unchanged. -/
theorem run : θ_run defs (onTc (τ := τ) (main (F := Ideal))) ⟨m, fun _ => 0, ρ⟩ fun r => ∀ c : Dev nD,
      r.2.mem ((c : Thread nD τ).loc main_v26)
        = score (feat (F := Ideal) (m ((c : Thread nD τ).loc main_arg0)) (m ((c : Thread nD τ).loc main_arg1)) (m ((c : Thread nD τ).loc main_arg2)))
            (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (result_launch m c)), (h c).2⟩)
    (Value.run_blocks m ρ)

end Cert.KernelIdeal.Hand

end
-- ==== Proof.RefValue.lean ====
/-
  The reference's result is the edge score of its own feature rows.

  The reference's last stage, read one operation at a time at an index of the `[1000000, 1]` result: the quotient
  `1 / (1 + e^(−z))` is the logistic of `z` by definition on the extended reals; `z` is the second contraction over the
  128 hidden units plus the bias; each hidden unit is the maximum with zero of the first contraction over the 128
  features plus its bias. The contractions' operand indices are (edge, k) and (k, unit), which is how the
  specification spells them.
-/
import proofs.«431296_j62045097558106_3_alg».proof.Proof.Gen.ReferenceIdeal.Read
import proofs.«431296_j62045097558106_3_alg».proof.Proof.Spec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.EdgeScore
open scoped BigOperators

variable (x0 x1 : (⟨S100000x128, .f32⟩ : BufTy).Contents (Elt Ideal)) (x2 : (⟨S2x1000000, .i32⟩ : BufTy).Contents (Elt Ideal))
  (x3 : (⟨S128x128, .f32⟩ : BufTy).Contents (Elt Ideal)) (x4 : (⟨S128, .f32⟩ : BufTy).Contents (Elt Ideal))
  (x5 : (⟨S128x1, .f32⟩ : BufTy).Contents (Elt Ideal)) (x6 : (⟨S1, .f32⟩ : BufTy).Contents (Elt Ideal))

/-- The rectified first layer at (edge, unit) is the specification's hidden unit over the reference's feature rows. -/
theorem relu_eq (e : Fin 1000000) (j : Fin 128) :
    val_main_v23 (F := Ideal) x0 x1 x2 x3 x4 (ix2 e j) = hidden (val_main_v18 (F := Ideal) x0 x1 x2) x3 x4 e j := by
  rw [val_main_v23_apply, val_main_v22_apply, val_main_v19_apply, val_main_v21_apply, val_main_v20_apply,
    val_main_call0_v0_apply, val_main_call0_cst_apply]
  have hl : ∀ k : Fin 128, lidx_main_v19 (ix2 e j) k = ix2 e k := fun k => funext fun a => by
    match a with
    | ⟨0, _⟩ => rfl
    | ⟨1, _⟩ => rfl
  have hr : ∀ k : Fin 128, ridx_main_v19 (ix2 e j) k = ix2 k j := fun k => funext fun a => by
    match a with
    | ⟨0, _⟩ => rfl
    | ⟨1, _⟩ => rfl
  have hb : idx_main_v20 (idx_main_v21 (ix2 e j)) = ix1 j := funext fun a => by
    match a with
    | ⟨0, _⟩ => rfl
  simp only [hl, hr, hb]
  rfl

/-- THE REFERENCE'S RESULT: the score array of its feature rows `left[pairs₀] · right[pairs₁]` (its stage 18). -/
theorem result_eq :
    val_main_v33 (F := Ideal) x0 x1 x2 x3 x4 x5 x6 = score (val_main_v18 (F := Ideal) x0 x1 x2) x3 x4 x5 x6 := by
  funext i
  obtain ⟨e, c, rfl⟩ : ∃ (e : Fin 1000000) (c : Fin 1), i = ix2 e c := ⟨i 0, i 1, eq_ix2 i⟩
  rw [val_main_v33_apply, val_main_v32_apply, val_main_cst_3_apply, val_main_v31_apply, val_main_v30_apply, val_main_cst_apply,
    val_main_v29_apply, val_main_v28_apply, val_main_v27_apply, val_main_v24_apply, val_main_v26_apply, val_main_v25_apply,
    Ideal.ofBits_def, Ideal.ofBits_one_f32]
  show Ideal.logistic _ = Ideal.logistic _
  congr 1
  show (∑ k : Fin 128, _) + _ = (∑ j : Fin 128, _) + _
  congr 1
  · refine Finset.sum_congr rfl fun k _ => ?_
    have hl : lidx_main_v24 (ix2 e c) k = ix2 e k := funext fun a => by
      match a with
      | ⟨0, _⟩ => rfl
      | ⟨1, _⟩ => rfl
    have hr : ridx_main_v24 (ix2 e c) k = ix2 k c := funext fun a => by
      match a with
      | ⟨0, _⟩ => rfl
      | ⟨1, _⟩ => rfl
    rw [hl, hr, relu_eq]
  · refine congrArg x6 (funext fun a => ?_)
    match a with
    | ⟨0, _⟩ => exact Subsingleton.elim (α := Fin 1) _ _

end Cert.ReferenceIdeal.RefValue

end
-- ==== Proof.LibGatherClamp.lean ====
/-
  `stablehlo.gather` sees its start indices only through a clamp.

  Every start index is read as a signed integer and clamped so that the slice fits: on an operand axis `a` named by the
  start index map the slice starts at `min (max idx 0) (size a − slice a)`. So two arrays of start indices that agree
  AFTER that clamp gather the same elements, whatever they are before it. The second half is about one 32-bit word
  `q ≥ 0` (signed): jnp's wrap of a negative index, `select (q < 0) (q + n) q`, leaves it alone; jnp's clip to
  `[0, hi]`, `minimum hi (maximum 0 q)`, is `min q hi`; and a clip to `[0, M]` disappears under a clamp to `[0, M]`:
  `min (min q M) M = min q M`. Together: clipping non-negative row numbers to the table before a gather of rows changes
  nothing the gather reads.
-/
import Idealize.ShloMosaic.PureOps
import Idealize.ShloMosaic.Lib.ValueIdx

noncomputable section

namespace Idealize.ShloMosaic.GatherClamp

open Idealize.ShloMosaic

/-- Start indices that agree after the gather's own clamp, on every operand axis the start index map names, give the
    same gather: the operand index is the clamped start plus coordinates that do not look at the start indices. -/
theorem gather_congr_of_clamp {α : Type} {s si t : Shape} {w : Nat} (d : GatherDims s si t) (x : s.Idx → α)
    (idx idx' : IVec si w)
    (h : ∀ a ∈ d.startIndexMap, ∀ i : si.Idx,
      min (idx i).toInt.toNat (s.size a - d.sliceSizes a) = min (idx' i).toInt.toNat (s.size a - d.sliceSizes a)) :
    Host.gather d x idx = Host.gather d x idx' := by
  funext j
  unfold Host.gather
  congr 1
  funext a
  apply Fin.ext
  show d.start j idx a + d.batchCoord j a + d.offCoord j a = d.start j idx' a + d.batchCoord j a + d.offCoord j a
  congr 2
  unfold GatherDims.start
  split
  · rename_i ha; exact h a ha _
  · rfl

/-! ## One non-negative word -/

theorem toInt_zero32 : (0#32 : BitVec 32).toInt = 0 := by decide

/-- The signed test `q < 0` fails on a non-negative word. -/
theorem slt_zero_of_nonneg (q : BitVec 32) (h : 0 ≤ q.toInt) : IntOp.cmpi .slt q 0#32 = 0#1 := by
  unfold IntOp.cmpi
  have : q.slt 0#32 = false := by
    simp only [BitVec.slt, toInt_zero32, decide_eq_false_iff_not]; omega
  rw [this]; rfl

/-- jnp's wrap of a negative index (`q + n` where `q < 0`) leaves a non-negative word as it is. -/
theorem wrap_of_nonneg (q n : BitVec 32) (h : 0 ≤ q.toInt) :
    Scalar.select (IntOp.cmpi .slt q 0#32) (IntOp.addi q n) q = q := by
  rw [slt_zero_of_nonneg q h]; exact ValueIdx.select_zero _ _

/-- The signed maximum with zero of a non-negative word is the word. -/
theorem maxsi_zero_of_nonneg (q : BitVec 32) (h : 0 ≤ q.toInt) : IntOp.maxsi 0#32 q = q := by
  unfold IntOp.maxsi
  have : q.slt 0#32 = false := by
    simp only [BitVec.slt, toInt_zero32, decide_eq_false_iff_not]; omega
  rw [this]; rfl

/-- The signed minimum as a case split on the values. -/
theorem minsi_eq (a b : BitVec 32) : IntOp.minsi a b = if a.toInt < b.toInt then a else b := by
  unfold IntOp.minsi
  simp only [BitVec.slt, decide_eq_true_eq]

/-- THE CLIP UNDER THE CLAMP. For a non-negative word `q` and a bound `hi` of value `M`: the clip `minimum hi (maximum 0 q)`,
    read signed and clamped to `[0, M]`, is `q` read signed and clamped to `[0, M]`. -/
theorem clamp_clip_of_nonneg (q hi : BitVec 32) (M : Nat) (hq : 0 ≤ q.toInt) (hhi : hi.toInt = (M : Int)) :
    min (IntOp.minsi hi (IntOp.maxsi 0#32 q)).toInt.toNat M = min q.toInt.toNat M := by
  rw [maxsi_zero_of_nonneg q hq, minsi_eq]
  split
  · rename_i hlt
    rw [hhi] at hlt ⊢
    simp only [Int.toNat_natCast]
    omega
  · rfl

/-- The same after jnp's wrap on both sides (neither does anything to a non-negative word): what a gather of rows reads
    at the clipped-then-wrapped index is what it reads at the wrapped index. -/
theorem clamp_wrap_clip_of_nonneg (q hi n : BitVec 32) (M : Nat) (hq : 0 ≤ q.toInt) (hhi : hi.toInt = (M : Int)) :
    min (Scalar.select (IntOp.cmpi .slt (IntOp.minsi hi (IntOp.maxsi 0#32 q)) 0#32)
        (IntOp.addi (IntOp.minsi hi (IntOp.maxsi 0#32 q)) n) (IntOp.minsi hi (IntOp.maxsi 0#32 q))).toInt.toNat M
      = min (Scalar.select (IntOp.cmpi .slt q 0#32) (IntOp.addi q n) q).toInt.toNat M := by
  have hc : 0 ≤ (IntOp.minsi hi (IntOp.maxsi 0#32 q)).toInt := by
    rw [maxsi_zero_of_nonneg q hq, minsi_eq]
    split
    · rw [hhi]; exact Int.natCast_nonneg M
    · exact hq
  rw [wrap_of_nonneg _ n hc, wrap_of_nonneg q n hq]
  exact clamp_clip_of_nonneg q hi M hq hhi

end Idealize.ShloMosaic.GatherClamp

end
-- ==== Proof.Bridge.lean ====
/-
  The two programs gather the same feature rows when every index is non-negative.

  The kernel clips each index to `[0, 99999]` before jnp's wrap and the gather; the reference only wraps. A gather of
  rows clamps its start index to `[0, 99999]` anyway. For an index `q ≥ 0` neither wrap does anything, the clip is
  `min q 99999`, and `min (min q 99999) 99999 = min q 99999`: both gathers read row `min q 99999`. (For `q` in
  `[−99999, −1]` they would not: the reference reads row `q + 100000`, the kernel row `0`.) The casts to bf16 and back
  are the identity on the extended reals, so the products agree entry by entry.
-/
import proofs.«431296_j62045097558106_3_alg».proof.Proof.KernelHost
import proofs.«431296_j62045097558106_3_alg».proof.Proof.Gen.ReferenceIdeal.Read
import proofs.«431296_j62045097558106_3_alg».proof.Proof.LibGatherClamp
import Idealize.ShloMosaic.PureOps.Ideal

noncomputable section

namespace Cert.Proof.Bridge

open Idealize.ShloMosaic Idealize.ShloMosaic.TcCoe Idealize.ShloMosaic.GatherClamp

/-- The two printed programs carry the same gather dimension numbers. -/
theorem gather_dims_eq :
    Cert.KernelIdeal.gather_S100000x128_S1000000x1_S1000000x128_1_0_n_n_0_1_1128
      = Cert.ReferenceIdeal.gather_S100000x128_S1000000x1_S1000000x128_1_0_n_n_0_1_1128 := rfl

/-- One gather of rows: the kernel's clipped-then-wrapped indices against the reference's wrapped indices, the same
    rows when the source indices are non-negative. -/
theorem gather_src (tbl : (⟨2, ![100000, 128]⟩ : Shape).Idx → EReal) (p : IVec ⟨2, ![2, 1000000]⟩ 32)
    (hp : ∀ i, 0 ≤ (p i).toInt) :
    Host.gather Cert.KernelIdeal.gather_S100000x128_S1000000x1_S1000000x128_1_0_n_n_0_1_1128 tbl
        (Cert.KernelIdeal.Hand.wrapIdx (Cert.KernelIdeal.Hand.clipIdx (Cert.KernelIdeal.Hand.srcIdx p)))
      = Host.gather Cert.ReferenceIdeal.gather_S100000x128_S1000000x1_S1000000x128_1_0_n_n_0_1_1128 tbl
        (Cert.ReferenceIdeal.Read.val_main_v7 (F := Ideal) p) := by
  rw [← gather_dims_eq]
  refine gather_congr_of_clamp _ tbl _ _ fun a ha i => ?_
  obtain rfl : a = 0 := List.mem_singleton.mp ha
  show min _ 99999 = min _ 99999
  unfold Cert.KernelIdeal.Hand.wrapIdx Cert.ReferenceIdeal.Read.val_main_v7
  simp only [broadcastInDim]
  exact clamp_wrap_clip_of_nonneg _ 99999#32 100000#32 99999 (hp _) (by decide)

/-- The same for the destination indices (row 1 of `pairs`). -/
theorem gather_dst (tbl : (⟨2, ![100000, 128]⟩ : Shape).Idx → EReal) (p : IVec ⟨2, ![2, 1000000]⟩ 32)
    (hp : ∀ i, 0 ≤ (p i).toInt) :
    Host.gather Cert.KernelIdeal.gather_S100000x128_S1000000x1_S1000000x128_1_0_n_n_0_1_1128 tbl
        (Cert.KernelIdeal.Hand.wrapIdx (Cert.KernelIdeal.Hand.clipIdx (Cert.KernelIdeal.Hand.dstIdx p)))
      = Host.gather Cert.ReferenceIdeal.gather_S100000x128_S1000000x1_S1000000x128_1_0_n_n_0_1_1128 tbl
        (Cert.ReferenceIdeal.Read.val_main_v16 (F := Ideal) p) := by
  rw [← gather_dims_eq]
  refine gather_congr_of_clamp _ tbl _ _ fun a ha i => ?_
  obtain rfl : a = 0 := List.mem_singleton.mp ha
  show min _ 99999 = min _ 99999
  unfold Cert.KernelIdeal.Hand.wrapIdx Cert.ReferenceIdeal.Read.val_main_v16
  simp only [broadcastInDim]
  exact clamp_wrap_clip_of_nonneg _ 99999#32 100000#32 99999 (hp _) (by decide)

/-- THE FEATURE ROWS AGREE: the array the kernel's host code hands its pallas_call is the reference's product of
    gathered rows, when every entry of `pairs` is non-negative. -/
theorem feat_eq (l r : (⟨2, ![100000, 128]⟩ : Shape).Idx → EReal) (p : IVec ⟨2, ![2, 1000000]⟩ 32)
    (hp : ∀ i, 0 ≤ (p i).toInt) :
    (Cert.KernelIdeal.Hand.feat (F := Ideal) l r p : (⟨2, ![1000000, 128]⟩ : Shape).Idx → EReal)
      = Cert.ReferenceIdeal.Read.val_main_v18 (F := Ideal) l r p := by
  show mulf (F := Ideal) (φ := .f32) (Host.gather _ l _) (Host.gather _ r _) = mulf (F := Ideal) (φ := .f32) (Host.gather _ l _) (Host.gather _ r _)
  rw [gather_src l p hp, gather_dst r p hp]

end Cert.Proof.Bridge

end
-- ==== Proof.Domain.lean ====
/-
  What the precondition says of the index array: every entry of `pairs` is non-negative.

  The precondition is a conjunction of `jnp.all`s; its last conjunct is `all (pairs ≥ 0)`, printed as the reduction by
  `and` of the signed comparison of `pairs` with a zero splat. A conjunction that is 1 has every conjunct 1; an `all`
  that is 1 has every element 1; and `0 ≤ₛ q` on words is `0 ≤ q.toInt`.
-/
import proofs.«431296_j62045097558106_3_alg».proof.Pre_finite_inputs
import Idealize.ShloMosaic.Lib.ReduceAll
import Idealize.ShloMosaic.Lib.ValueIdx
import Idealize.ShloMosaic.Lib.StableHlo.Predicate

noncomputable section

namespace Cert.Pre_finite_inputs.Domain

open Cert.Pre_finite_inputs Idealize.ShloMosaic Idealize.ShloMosaic.ValueIdx

variable [Cert.Pre_finite_inputs.Facts]
variable {F : FTy → Type} [FloatOps F]

instance : Subsingleton S_.Idx := ⟨fun a b => funext fun d => d.elim0⟩

/-- A signed `q ≥ 0` that holds says the word's signed value is non-negative. -/
theorem nonneg_of_sge_zero (q : BitVec 32) (h : IntOp.cmpi .sge q 0#32 = 1#1) : 0 ≤ q.toInt := by
  unfold IntOp.cmpi at h
  have h' : (0#32 : BitVec 32).sle q = true := (StableHlo.Predicate.ofBool_eq_one_iff _).1 h
  simp only [BitVec.sle, decide_eq_true_eq] at h'
  have h0 : (0#32 : BitVec 32).toInt = 0 := by decide
  omega

/-- THE DOMAIN: under the precondition every entry of the index array is a non-negative 32-bit integer. -/
theorem pairs_nonneg (a0 a1 : FVec F S100000x128 .f32) (p : IVec S2x1000000 32) (a3 : FVec F S128x128 .f32)
    (a4 : FVec F S128 .f32) (a5 : FVec F S128x1 .f32) (a6 : FVec F S1 .f32)
    (h : fn (F := F) a0 a1 p a3 a4 a5 a6 = fun _ => 1#1) (i : S2x1000000.Idx) : 0 ≤ (p i).toInt := by
  have h0 := congrFun h ix0
  dsimp only [fn, fn_part1] at h0
  have h1 := (IntOp.andi_eq_one.1 h0).2
  have h2 := Host.reduce_andi_all _ _ _ _ _ h1 i
  exact nonneg_of_sge_zero (p i) h2

end Cert.Pre_finite_inputs.Domain

end
-- ==== Proof.lean ====
/-
  An edge scorer for a graph: a Pallas kernel against its jnp reference, equal on the extended reals.

  For each of 1,000,000 edges `e = (pairs[0,e], pairs[1,e])` both programs form the feature row
  `x_e = left[pairs[0,e]] · right[pairs[1,e]]` (128 entries, an elementwise product of two gathered embedding rows) and
  return `σ (max (x_e W1 + b1) 0 · W2 + b2)`, a `[1000000, 1]` array. The reference does all of it on the host. The
  kernel gathers and multiplies on the host too (in bf16, which is the identity here) and runs the two-layer perceptron
  in a pallas_call over 125 blocks of 8000 edges.

  The perceptron is the same expression on both sides, sums in the same order (Proof/Spec.lean `score`): the kernel's
  block-by-block result is that whole-array function of its feature rows (Proof/KernelBody.lean, Proof/KernelValue.lean),
  and the reference's last stage is the same function of its own (Proof/RefValue.lean). No law of the extended reals is
  used and the finiteness of the float inputs is never opened.

  The feature rows are where the programs differ: the kernel clips each index to `[0, 99999]` before the gather, the
  reference does not. A gather clamps its start index to the table anyway, so an index ≥ 100000 reads row 99999 either
  way; but jnp wraps a negative index first, so at `−1` the reference reads row 99999 and the kernel row 0. The
  precondition therefore also says that every entry of `pairs` is non-negative (Proof/Domain.lean reads that back),
  and under it the two gathers read the same rows (Proof/LibGatherClamp.lean, Proof/Bridge.lean).

  The three frames are the generated ones (the reference's is its run with the result dropped); the idealization
  rewrote nothing, so `preserves` is `True`.
-/
import proofs.«431296_j62045097558106_3_alg».proof.Defs
import proofs.«431296_j62045097558106_3_alg».proof.Proof.Gen.Kernel
import proofs.«431296_j62045097558106_3_alg».proof.Proof.Gen.Kernel.Skeleton
import proofs.«431296_j62045097558106_3_alg».proof.Proof.Gen.Kernel.Launch
import proofs.«431296_j62045097558106_3_alg».proof.Proof.Gen.Kernel.Points
import proofs.«431296_j62045097558106_3_alg».proof.Proof.Gen.Kernel.Frame
import proofs.«431296_j62045097558106_3_alg».proof.Proof.Gen.KernelIdeal
import proofs.«431296_j62045097558106_3_alg».proof.Proof.Gen.KernelIdeal.Skeleton
import proofs.«431296_j62045097558106_3_alg».proof.Proof.Gen.KernelIdeal.Launch
import proofs.«431296_j62045097558106_3_alg».proof.Proof.Gen.KernelIdeal.Points
import proofs.«431296_j62045097558106_3_alg».proof.Proof.Gen.KernelIdeal.Frame
import proofs.«431296_j62045097558106_3_alg».proof.Proof.Gen.ReferenceIdeal
import proofs.«431296_j62045097558106_3_alg».proof.Proof.Gen.Pre_finite_inputs
import proofs.«431296_j62045097558106_3_alg».proof.Proof.Gen.KernelIdeal.Value
import proofs.«431296_j62045097558106_3_alg».proof.Proof.Gen.ReferenceIdeal.Run
import proofs.«431296_j62045097558106_3_alg».proof.Proof.Gen.ReferenceIdeal.Read
import proofs.«431296_j62045097558106_3_alg».proof.Proof.KernelValue
import proofs.«431296_j62045097558106_3_alg».proof.Proof.RefValue
import proofs.«431296_j62045097558106_3_alg».proof.Proof.Bridge
import proofs.«431296_j62045097558106_3_alg».proof.Proof.Domain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the score array of the reference's feature rows: the kernel's run gives the score of ITS
    feature rows, which are the reference's because the precondition makes every index non-negative. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v33_eq, Cert.ReferenceIdeal.RefValue.result_eq,
    Cert.Proof.Bridge.feat_eq _ _ _ (Cert.Pre_finite_inputs.Domain.pairs_nonneg _ _ _ _ _ _ _ (hpre c))]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
